-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x512 : Shape := ⟨3, ![2048, 64, 512]⟩
abbrev S2048x64x1 : Shape := ⟨3, ![2048, 64, 1]⟩
abbrev S_ : Shape := ⟨0, ![]⟩

class Facts : Prop where
  bcast_S_S2048x64x512 : S_.BroadcastsInDim S2048x64x512 (![] : Fin 0 → Fin S2048x64x512.rank)
  reducesTo_S2048x64x512_S_d0_1_2 : S2048x64x512.ReducesTo [0, 1, 2] S_
  h_S_ : 0 < S_.numel
  bcast_S_S2048x64x1 : S_.BroadcastsInDim S2048x64x1 (![] : Fin 0 → Fin S2048x64x1.rank)
  reducesTo_S2048x64x1_S_d0_1_2 : S2048x64x1.ReducesTo [0, 1, 2] S_

variable [Facts]

def fn {F : FTy → Type} [FloatOps F] (main_arg0 : FVec F S2048x64x512 .f32) (main_arg1 : FVec F S2048x64x1 .f32) : IVec S_ 1 :=
  let main_v0 : FVec F S2048x64x512 .f32 := Host.absf main_arg0
  let main_cst : FVec F S_ .f32 := constant S_ .f32 0x7F800000#32
  let main_v1 : FVec F S2048x64x512 .f32 := broadcastInDim S2048x64x512 ![] bcast_S_S2048x64x512 main_cst
  let main_v2 : IVec S2048x64x512 1 := cmpf .olt main_v0 main_v1
  let main_c : IVec S_ 1 := constantI S_ 1 1#1
  let main_v3 : IVec S_ 1 := (fun x v => Host.reduce IntOp.andi x v reducesTo_S2048x64x512_S_d0_1_2 h_S_) main_v2 main_c
  let main_v4 : FVec F S2048x64x1 .f32 := Host.absf main_arg1
  let main_cst_0 : FVec F S_ .f32 := constant S_ .f32 0x7F800000#32
  let main_v5 : FVec F S2048x64x1 .f32 := broadcastInDim S2048x64x1 ![] bcast_S_S2048x64x1 main_cst_0
  let main_v6 : IVec S2048x64x1 1 := cmpf .olt main_v4 main_v5
  let main_c_1 : IVec S_ 1 := constantI S_ 1 1#1
  let main_v7 : IVec S_ 1 := (fun x v => Host.reduce IntOp.andi x v reducesTo_S2048x64x1_S_d0_1_2 h_S_) main_v6 main_c_1
  let main_v8 : IVec S_ 1 := andi main_v3 main_v7
  main_v8
-- ==== Kernel.lean ====
abbrev S2048x64x512 : Shape := ⟨3, ![2048, 64, 512]⟩
abbrev S2048x64x1 : Shape := ⟨3, ![2048, 64, 1]⟩
abbrev S131072x512 : Shape := ⟨2, ![131072, 512]⟩
abbrev S131072x1 : Shape := ⟨2, ![131072, 1]⟩
abbrev S64x8x128 : Shape := ⟨3, ![64, 8, 128]⟩
abbrev S2048x512 : Shape := ⟨2, ![2048, 512]⟩
abbrev S2048x1 : Shape := ⟨2, ![2048, 1]⟩
abbrev S1x8x128 : Shape := ⟨3, ![1, 8, 128]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 22
  | .vmem => 8
  | .smem => 0
  | _ => 0

abbrev bufTy : (tb : Table) → Fin (tcTables nBuf tb) → BufTy
  | .hbm, ⟨0, _⟩ => ⟨S2048x64x512, .f32⟩
  | .hbm, ⟨1, _⟩ => ⟨S2048x64x1, .f32⟩
  | .hbm, ⟨2, _⟩ => ⟨S131072x512, .f32⟩
  | .hbm, ⟨3, _⟩ => ⟨S131072x1, .f32⟩
  | .hbm, ⟨4, _⟩ => ⟨S64x8x128, .f32⟩
  | .hbm, ⟨5, _⟩ => ⟨S64x8x128, .f32⟩
  | .hbm, ⟨6, _⟩ => ⟨S64x1x1, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S64x1x1, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x64x512_S131072x512 : S2048x64x512.ShapeCasts S131072x512
  shapeCasts_S2048x64x1_S131072x1 : S2048x64x1.ShapeCasts S131072x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  reduces_S2048x512_S2048 : S2048x512.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S64x8x128.size a
  hwx0_2 : ∀ i : grid0.Coords, EltTy.bits .f32 = 32 ∨ (Rect.block (s := S64x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x64x512 : Shape := ⟨3, ![2048, 64, 512]⟩
abbrev S2048x64x1 : Shape := ⟨3, ![2048, 64, 1]⟩
abbrev S_ : Shape := ⟨0, ![]⟩
abbrev S2048x64 : Shape := ⟨2, ![2048, 64]⟩
abbrev S131072x512 : Shape := ⟨2, ![131072, 512]⟩

abbrev nBuf : Space → Nat
  | .hbm => 39
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S2048x64x1, .f32⟩
  | .hbm, ⟨2, _⟩ => ⟨S2048x64x512, .f32⟩
  | .hbm, ⟨3, _⟩ => ⟨S2048x64x512, .f32⟩
  | .hbm, ⟨4, _⟩ => ⟨S_, .f32⟩
  | .hbm, ⟨5, _⟩ => ⟨S2048x64, .f32⟩
  | .hbm, ⟨6, _⟩ => ⟨S_, .f32⟩
  | .hbm, ⟨7, _⟩ => ⟨S2048x64, .f32⟩
  | .hbm, ⟨8, _⟩ => ⟨S2048x64, .f32⟩
  | .hbm, ⟨9, _⟩ => ⟨S2048x64x1, .f32⟩
  | .hbm, ⟨10, _⟩ => ⟨S2048x64x512, .f32⟩
  | .hbm, ⟨11, _⟩ => ⟨S2048x64x512, .f32⟩
  | .hbm, ⟨12, _⟩ => ⟨S2048x64x512, .f32⟩
  | .hbm, ⟨13, _⟩ => ⟨S_, .f32⟩
  | .hbm, ⟨14, _⟩ => ⟨S2048x64, .f32⟩
  | .hbm, ⟨15, _⟩ => ⟨S2048x64x1, .f32⟩
  | .hbm, ⟨16, _⟩ => ⟨S2048x64x512, .f32⟩
  | .hbm, ⟨17, _⟩ => ⟨S2048x64x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .i1⟩
  | .hbm, ⟨22, _⟩ => ⟨S131072x512, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .f32⟩
  | .hbm, ⟨35, _⟩ => ⟨S_, .i32⟩
  | .hbm, ⟨36, _⟩ => ⟨S_, .i1⟩
  | .hbm, ⟨37, _⟩ => ⟨S_, .f32⟩
  | .hbm, ⟨38, _⟩ => ⟨S_, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_cst_3 : Ref sig .tc := ⟨.hbm, 25, rfl⟩
abbrev main_call0_v0 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S2048x64x1_S2048x64x512_0_1_2 : S2048x64x1.BroadcastsInDim S2048x64x512 (![0, 1, 2] : Fin 3 → Fin S2048x64x512.rank)
  reducesTo_S2048x64x512_S2048x64_d2 : S2048x64x512.ReducesTo [2] S2048x64
  h_S_ : 0 < S_.numel
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  shapeCasts_S2048x64x512_S131072x512 : S2048x64x512.ShapeCasts S131072x512
  bcast_S_S131072x512 : S_.BroadcastsInDim S131072x512 (![] : Fin 0 → Fin S131072x512.rank)
  natLt_1_32 : 1 < 32
  reducesTo_S131072x512_S_d0_1 : S131072x512.ReducesTo [0, 1] S_

variable [Facts₀]

class Facts : Prop extends Facts₀ where

variable [Facts]
-- ==== Proof.Finite.lean ====
/-
  From the precondition to numbers: `finite_inputs` says that `|x| < +∞` holds of every entry of both arguments (each
  `jnp.all` a reduction by `and` that came out 1), and an extended real whose absolute value is below +∞ is a real number.
-/
import proofs.«150160_g48619029790963_pilotgen1_678_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic

instance : Subsingleton Cert.Pre_finite_inputs.S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under `finite_inputs` every entry of both arguments is a real number. -/
theorem of_pre [hP : Cert.Pre_finite_inputs.Facts] (a0 : FVec Ideal Cert.Pre_finite_inputs.S2048x64x512 .f32)
    (a1 : FVec Ideal Cert.Pre_finite_inputs.S2048x64x1 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  exact ⟨fun i => real_of_abs_lt _ (Host.reduce_andi_all _ _ _ _ _ h1 i),
    fun i => real_of_abs_lt _ (Host.reduce_andi_all _ _ _ _ _ h2 i)⟩

end Cert.Finite

end
-- ==== Proof.RowLaw.lean ====
/-
  One row of scores and its softmax, over the extended reals.

  For a row `x` (finitely many entries) write `top x` for its largest entry (from −∞), `ex x c = exp (x c − top x)` for
  the shifted exponentials, `mass x = Σ_c ex x c`, `prob x c = ex x c / mass x` for the softmax probabilities and
  `topProb x = 1 / mass x`. When every entry is a real number, the largest entry is attained at some `c₀`, where
  `ex x c₀ = exp 0 = 1`, so `prob x c₀ = topProb x`; every `ex x c` lies in (0, 1], so `mass x ≥ 1`; and the probabilities
  are positive with sum 1. Hence for a threshold `θ ≥ 1/2` AT MOST ONE entry has `prob x c > θ`, and it can only be
  `c₀`: if `c ≠ c₀` then `mass x ≥ ex x c + 1`, and `ex x c > θ · mass x ≥ (ex x c + 1) / 2` would force `ex x c > 1`.
  Consequently
      Σ_c (prob x c  if  prob x c > θ  else 0)  =  (topProb x  if  topProb x > θ  else 0),
      #{c | prob x c > θ}                       =  (1  if  topProb x > θ  else 0):
  thresholding every probability of the row and summing is the same as thresholding the row maximum's probability alone.
-/
import Idealize.ShloMosaic.PureOps.Ideal
import Idealize.ShloMosaic.Lib.IdealHost

noncomputable section

namespace Cert.RowLaw

open Idealize.ShloMosaic
open scoped BigOperators

variable {ι : Type} [Fintype ι]

/-- The largest entry of the row, from −∞. -/
def top (x : ι → EReal) : EReal := Finset.univ.fold max ⊥ x
/-- The exponential of an entry's distance below the largest. -/
def ex (x : ι → EReal) (c : ι) : EReal := Ideal.exp (x c - top x)
/-- The sum of the shifted exponentials. -/
def mass (x : ι → EReal) : EReal := ∑ c, ex x c
/-- The softmax probability of entry `c`. -/
def prob (x : ι → EReal) (c : ι) : EReal := Ideal.div (ex x c) (mass x)
/-- The softmax probability of a largest entry: `exp 0 / mass`. -/
def topProb (x : ι → EReal) : EReal := Ideal.div 1 (mass x)

/-- A finite sum of reals, read in the extended reals, is the sum of the readings. -/
theorem coe_sum {κ : Type} (s : Finset κ) (f : κ → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- Over the reals: weights in (0, 1], one of them (`c₀`) equal to 1, total `s`; a weight whose share `e c / s` exceeds
    a threshold `t ≥ 1/2` is the one at `c₀`. -/
theorem share_unique [DecidableEq ι] (e : ι → ℝ) (c₀ : ι) (h1 : e c₀ = 1) (hle : ∀ c, e c ≤ 1) (hpos : ∀ c, 0 < e c)
    (t : ℝ) (ht : 1 / 2 ≤ t) (c : ι) (hc : t < e c / ∑ k, e k) : c = c₀ := by
  by_contra hne
  have hs : e c + e c₀ ≤ ∑ k, e k := by
    have h := Finset.sum_le_sum_of_subset_of_nonneg (f := e) (Finset.subset_univ {c, c₀}) (fun i _ _ => (hpos i).le)
    rwa [Finset.sum_pair hne] at h
  have hspos : 0 < ∑ k, e k := by have := hpos c; have := hpos c₀; linarith
  rw [lt_div_iff₀ hspos] at hc
  have hhalf : (1 / 2) * ∑ k, e k ≤ t * ∑ k, e k := mul_le_mul_of_nonneg_right ht hspos.le
  have := hle c
  linarith

section Finite

variable [DecidableEq ι] [Nonempty ι] (y : ι → ℝ)

/-- A row of reals attains its largest entry. -/
theorem exists_top : ∃ c₀, (∀ c, y c ≤ y c₀) ∧ top (fun c => (y c : EReal)) = (y c₀ : EReal) := by
  obtain ⟨c₀, -, hmax⟩ := Finset.exists_max_image Finset.univ y Finset.univ_nonempty
  refine ⟨c₀, fun c => hmax c (Finset.mem_univ c), le_antisymm ?_ ?_⟩
  · exact (Finset.fold_max_le _).mpr ⟨bot_le, fun c _ => EReal.coe_le_coe_iff.mpr (hmax c (Finset.mem_univ c))⟩
  · exact (Finset.le_fold_max _).mpr (Or.inr ⟨c₀, Finset.mem_univ c₀, le_rfl⟩)

/-- The row's softmax in the reals: with `c₀` a largest entry and `e c = exp (y c − y c₀)`, the probabilities are the
    reals `e c / Σ e`, the largest entry's is `1 / Σ e`, and the weights are as `share_unique` asks. -/
theorem real_form : ∃ (c₀ : ι) (e : ι → ℝ), e c₀ = 1 ∧ (∀ c, e c ≤ 1) ∧ (∀ c, 0 < e c)
    ∧ (∀ c, prob (fun c => (y c : EReal)) c = ((e c / ∑ k, e k : ℝ) : EReal))
    ∧ topProb (fun c => (y c : EReal)) = ((1 / ∑ k, e k : ℝ) : EReal) := by
  obtain ⟨c₀, hmax, htop⟩ := exists_top y
  refine ⟨c₀, fun c => Real.exp (y c - y c₀), by simp, fun c => ?_, fun c => Real.exp_pos _, ?_, ?_⟩
  · exact Real.exp_le_one_iff.mpr (by have := hmax c; linarith)
  all_goals
    have hex : ∀ c, ex (fun c => (y c : EReal)) c = ((Real.exp (y c - y c₀) : ℝ) : EReal) := fun c => by
      unfold ex; rw [htop, ← EReal.coe_sub]; rfl
    have hmass : mass (fun c => (y c : EReal)) = ((∑ k, Real.exp (y k - y c₀) : ℝ) : EReal) := by
      unfold mass; rw [coe_sum]; exact Finset.sum_congr rfl fun c _ => hex c
    have hs : (∑ k, Real.exp (y k - y c₀) : ℝ) ≠ 0 :=
      (Finset.sum_pos (fun k _ => Real.exp_pos _) Finset.univ_nonempty).ne'
  · intro c
    unfold prob
    rw [hmass, hex, Ideal.div_coe hs, ← EReal.coe_mul, mul_one_div]
  · unfold topProb
    rw [hmass, Ideal.div_coe hs, one_mul]

end Finite

variable [DecidableEq ι] [Nonempty ι]

/-- AT MOST ONE CONFIDENT ENTRY: for a row of reals and a real threshold `t ≥ 1/2` there is an entry `c₀` whose probability
    is `topProb` and which is the only entry whose probability can exceed `t`. -/
theorem confident_unique (x : ι → EReal) (hx : ∀ c, ∃ r : ℝ, x c = (r : EReal)) (θ : EReal)
    (hθ : ∃ t : ℝ, θ = (t : EReal) ∧ 1 / 2 ≤ t) :
    ∃ c₀, prob x c₀ = topProb x ∧ ∀ c, θ < prob x c → c = c₀ := by
  choose y hy using hx
  obtain ⟨t, rfl, ht⟩ := hθ
  obtain rfl : x = fun c => (y c : EReal) := funext hy
  obtain ⟨c₀, e, h1, hle, hpos, hprob, htopP⟩ := real_form y
  refine ⟨c₀, ?_, fun c hc => ?_⟩
  · rw [hprob, htopP, h1]
  · rw [hprob, EReal.coe_lt_coe_iff] at hc
    exact share_unique e c₀ h1 hle hpos t ht c hc

/-- Thresholding every probability of the row and summing is thresholding the largest entry's probability. -/
theorem sum_confident (x : ι → EReal) (hx : ∀ c, ∃ r : ℝ, x c = (r : EReal)) (θ : EReal)
    (hθ : ∃ t : ℝ, θ = (t : EReal) ∧ 1 / 2 ≤ t) :
    ∑ c, (if θ < prob x c then prob x c else 0) = if θ < topProb x then topProb x else 0 := by
  obtain ⟨c₀, h0, huniq⟩ := confident_unique x hx θ hθ
  rw [Finset.sum_eq_single c₀ (fun c _ hne => if_neg fun h => hne (huniq c h)) (fun h => absurd (Finset.mem_univ _) h), h0]

/-- The number of entries whose probability exceeds the threshold is 1 or 0, as the largest entry's does or not. -/
theorem card_confident (x : ι → EReal) (hx : ∀ c, ∃ r : ℝ, x c = (r : EReal)) (θ : EReal)
    (hθ : ∃ t : ℝ, θ = (t : EReal) ∧ 1 / 2 ≤ t) :
    (Finset.univ.filter fun c => θ < prob x c).card = if θ < topProb x then 1 else 0 := by
  obtain ⟨c₀, h0, huniq⟩ := confident_unique x hx θ hθ
  rw [Finset.card_filter,
    Finset.sum_eq_single c₀ (fun c _ hne => if_neg fun h => hne (huniq c h)) (fun h => absurd (Finset.mem_univ _) h), h0]

/-- The largest entry's probability is a real number in (0, 1]. -/
theorem topProb_real (x : ι → EReal) (hx : ∀ c, ∃ r : ℝ, x c = (r : EReal)) : ∃ r : ℝ, topProb x = (r : EReal) ∧ 0 ≤ r := by
  choose y hy using hx
  obtain rfl : x = fun c => (y c : EReal) := funext hy
  obtain ⟨c₀, e, -, -, hpos, -, htopP⟩ := real_form y
  exact ⟨_, htopP, div_nonneg zero_le_one (Finset.sum_nonneg fun k _ => (hpos k).le)⟩

end Cert.RowLaw

end
-- ==== Proof.Consts.lean ====
/-
  The float constants the two programs spell, as the extended reals their patterns denote: the reduction's starting value
  `0xFF800000` is −∞, and the confidence threshold `0x3F666666` (the f32 nearest to 0.9) is the dyadic
  15099494 / 2²⁴, which is at least 1/2 — all the row law asks of it. (Zero and one are the library's.)
-/
import Idealize.ShloMosaic.PureOps.Ideal

noncomputable section

namespace Cert.Consts

open Idealize.ShloMosaic

/-- `0xFF800000`, the value a maximum starts from, denotes −∞. -/
theorem ofBits_neg_inf : Ideal.ofBits .f32 0xFF800000#32 = ⊥ := by
  simp [Ideal.ofBits, Ideal.ieee]

/-- `0x3F666666`, the threshold both programs compare against, denotes 15099494 / 2²⁴. -/
theorem ofBits_thresh : Ideal.ofBits .f32 0x3F666666#32 = (((15099494 : ℝ) / 16777216 : ℝ) : EReal) := by
  simp [Ideal.ofBits, Ideal.ieee, -EReal.coe_mul]; norm_num

/-- The threshold is a real number that is at least 1/2. -/
theorem thresh_half : ∃ t : ℝ, Ideal.ofBits .f32 0x3F666666#32 = (t : EReal) ∧ 1 / 2 ≤ t :=
  ⟨_, ofBits_thresh, by norm_num⟩

end Cert.Consts

end
-- ==== Proof.KernelBlock.lean ====
/-
  One grid point of the kernel, at the ideal values. The body loads a block of 2048 rows of scores (`x0`, 2048 × 512) and the
  rows' mask entries (`x1`, 2048 × 1). Row `p` of the block is the row of products `x0[p, c] · x1[p, 0]`; the body takes its
  largest entry (from −∞), sums the exponentials of the distances below it, and inverts the sum: the probability
  `topProb` of the row's largest entry (RowLaw). It then adds up, over the block's rows, that probability where it exceeds
  the threshold (the first stored value) and the indicator of that event (the second), and splats each over its output tile.
-/
import proofs.«150160_g48619029790963_pilotgen1_678_2_alg».proof.Proof.Gen.KernelIdeal.Skeleton
import proofs.«150160_g48619029790963_pilotgen1_678_2_alg».proof.Proof.RowLaw
import proofs.«150160_g48619029790963_pilotgen1_678_2_alg».proof.Proof.Consts
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Block

open Idealize.ShloMosaic Idealize.ShloMosaic.ValueIdx Cert.KernelIdeal Cert.KernelIdeal.Gen Cert.RowLaw
open scoped BigOperators

/-- The confidence threshold, as both programs spell it. -/
abbrev θ : EReal := Ideal.ofBits .f32 0x3F666666#32

/-- Row `p` of a block: the scores times the row's mask entry. -/
def row (x0 : FVec Ideal S2048x512 .f32) (x1 : FVec Ideal S2048x1 .f32) (p : Fin 2048) : Fin 512 → EReal :=
  fun c => x0 (ix2 p c) * x1 (ix2 p 0)

/-! ## The layout operations of the body, read at an index -/

/-- A vector of 2048 entries kept as a column reads its entry. -/
theorem col_apply {α : Type} (v : S2048.Idx → α) (h : S2048.ShapeCasts S2048x1) (p : Fin 2048) (q : Fin 1) :
    shapeCast S2048x1 v h (ix2 p q) = v (ix1 p) :=
  shapeCast_apply v h (ix2 p q) (ix1 p) (by
    rw [Shape.rowMajor_val_one, Shape.rowMajor_val_two]
    show p.val = p.val * 1 + q.val
    have := q.isLt; omega)

/-- A column broadcast along the rows reads the column's entry of that row. -/
theorem bcast_apply {α : Type} (v : S2048x1.Idx → α) (h : S2048x1.Broadcasts S2048x512) (p : Fin 2048) (c : Fin 512) :
    broadcastTo S2048x512 v h (ix2 p c) = v (ix2 p 0) :=
  broadcastTo_apply v h (ix2 p c) (ix2 p 0) (fun a => match a with
    | ⟨0, _⟩ => by show p.val = if (2048 : Nat) = 1 then 0 else p.val; rw [if_neg (by decide)]
    | ⟨1, _⟩ => by show 0 = if (1 : Nat) = 1 then 0 else c.val; rw [if_pos rfl])

/-- A block's products, as the body forms them: scores times the mask column broadcast along the row. -/
theorem prod_apply (x0 : FVec Ideal S2048x512 .f32) (x1 : FVec Ideal S2048x1 .f32) (p : Fin 2048) (c : Fin 512) :
    mulf (F := Ideal) (φ := .f32) (shapeCast S2048x512 x0 shapeCasts_S2048x512_S2048x512)
      (broadcastTo S2048x512 (shapeCast S2048x1 x1 shapeCasts_S2048x1_S2048x1) broadcasts_S2048x1_S2048x512) (ix2 p c)
      = row x0 x1 p c := by
  rw [mulf_apply, bcast_apply, shapeCast_self, shapeCast_self]
  rfl

/-! ## The reductions of the body, read at an index (the accumulators' evidence typed as the body prints it) -/

/-- The inserted index of a one-axis reduction along the row is (row, entry). -/
theorem lift_eq (h : S2048x512.Reduces [1] S2048) (p : Fin 2048) (k : Fin 512) : h.lift (ix1 p) k = ix2 p k :=
  funext fun a => Fin.ext (by match a with | ⟨0, _⟩ => rfl | ⟨1, _⟩ => rfl)

/-- A sum along the row, from zero, is the sum of the row's entries. -/
theorem rowSum_apply (src : FVec Ideal S2048x512 .f32) (h : S2048x512.Reduces [1] S2048) (hφ : FKind.Formats .f32)
    (hacc : (0x00000000#32 : BitVec 32) = 0x00000000#32) (p : Fin 2048) :
    multiReduction .add [1] S2048 src 0x00000000#32 h hφ hacc (ix1 p) = ∑ k : Fin 512, src (ix2 p k) := by
  refine (Ideal.multiReduction_add_single src 0x00000000#32 h hφ hacc (ix1 p)).trans ?_
  exact Finset.sum_congr rfl fun k _ => congrArg src (lift_eq h p k)

/-- A maximum along the row, from −∞, is the row's largest entry. -/
theorem rowMax_apply (src : FVec Ideal S2048x512 .f32) (h : S2048x512.Reduces [1] S2048) (hφ : FKind.Formats .f32)
    (hacc : (0xFF800000#32 : BitVec 32) = 0xFF800000#32) (p : Fin 2048) :
    multiReduction .maximumf [1] S2048 src 0xFF800000#32 h hφ hacc (ix1 p) = top (fun k : Fin 512 => src (ix2 p k)) := by
  refine (Ideal.multiReduction_maximumf_single src 0xFF800000#32 h hφ hacc (ix1 p)).trans ?_
  unfold top
  rw [show FloatOps.ofBits (F := Ideal) .f32 0xFF800000#32 = ⊥ from Cert.Consts.ofBits_neg_inf]
  exact congrArg (Finset.univ.fold max ⊥) (funext fun k => congrArg src (lift_eq h p k))

/-! ## The probability of a row's largest entry -/

/-- The body's quotient `1 / Σ exp (x − max x)` at row `p` is `topProb` of the row. -/
theorem pay1_apply (x0 : FVec Ideal S2048x512 .f32) (x1 : FVec Ideal S2048x1 .f32) (p : Fin 2048) :
    k0_pay1 (F := Ideal) x0 x1 (ix2 p 0) = topProb (row x0 x1 p) := by
  unfold k0_pay1
  dsimp only
  rw [divf_apply, col_apply]
  refine congrArg₂ Ideal.div Ideal.ofBits_one_f32 ((rowSum_apply _ _ _ _ p).trans ?_)
  unfold mass ex
  refine Finset.sum_congr rfl fun k _ => ?_
  show Ideal.exp (_ - _) = Ideal.exp (_ - _)
  rw [prod_apply, bcast_apply, col_apply, rowMax_apply]
  refine congrArg (fun z => Ideal.exp (row x0 x1 p k - top z)) (funext fun k' => prod_apply x0 x1 p k')

/-! ## The block's two sums -/

/-- A sum over every entry of a 1 × 2048 × 1 vector, from zero. -/
theorem total_apply (src : FVec Ideal S1x2048x1 .f32) (h : S1x2048x1.Reduces [1, 2] S1) (hφ : FKind.Formats .f32)
    (hacc : (0x00000000#32 : BitVec 32) = 0x00000000#32) (j : S1.Idx) :
    multiReduction .add [1, 2] S1 src 0x00000000#32 h hφ hacc j = ∑ i : S1x2048x1.Idx, src i :=
  Ideal.multiReduction_add_total src 0x00000000#32 h (fun b => by fin_cases b; rfl) hφ hacc j

/-- Summing a column recast as 1 × 2048 × 1 is summing the column's 2048 entries. -/
theorem sum_rows {M : Type} [AddCommMonoid M] (v : S2048x1.Idx → M) (h : S2048x1.ShapeCasts S1x2048x1) :
    ∑ i : S1x2048x1.Idx, v (Shape.reshapeEquiv h i) = ∑ p : Fin 2048, v (ix2 p 0) := by
  rw [Equiv.sum_comp (Shape.reshapeEquiv h) v, sum_idx2]
  exact Finset.sum_congr rfl fun p _ => Fin.sum_univ_one _

/-- Keeping a value where a comparison holds: the selection on the comparison's bit is the conditional. -/
theorem select_ogt {α : Type} (x y : EReal) (a b : α) : Scalar.select (Ideal.cmp .ogt x y) a b = if y < x then a else b := by
  unfold Scalar.select Ideal.cmp
  by_cases h : y < x <;> simp [h]

/-- The comparison's bit, widened and converted, is the indicator of the comparison. -/
theorem indicator_ogt (x y : EReal) :
    FloatOps.sitofp (F := Ideal) .f32 ((Ideal.cmp .ogt x y).setWidth 32) = if y < x then 1 else 0 := by
  show (((BitVec.setWidth 32 (Ideal.cmp .ogt x y)).toInt : ℝ) : EReal) = _
  unfold Ideal.cmp
  by_cases h : y < x <;> simp [h]

/-- THE FIRST STORED VALUE, at every entry of its tile: the sum over the block's rows of the largest entry's probability where
    it exceeds the threshold. -/
theorem pay3_apply (x0 : FVec Ideal S2048x512 .f32) (x1 : FVec Ideal S2048x1 .f32) (j : S1x8x128.Idx) :
    k0_pay3 (F := Ideal) x0 x1 j
      = ∑ p : Fin 2048, (if θ < topProb (row x0 x1 p) then topProb (row x0 x1 p) else 0) := by
  unfold k0_pay3 k0_pay2
  dsimp only
  show shapeCast S1x1x1 _ _ _ = _
  unfold shapeCast
  rw [total_apply, sum_rows]
  refine Finset.sum_congr rfl fun p _ => ?_
  rw [select_apply, cmpf_apply, pay1_apply]
  exact (select_ogt _ _ _ _).trans (if_congr Iff.rfl rfl Ideal.ofBits_zero_f32)

/-- THE SECOND STORED VALUE: the number of the block's rows whose largest entry's probability exceeds the threshold. -/
theorem pay4_apply (x0 : FVec Ideal S2048x512 .f32) (x1 : FVec Ideal S2048x1 .f32) (j : S1x8x128.Idx) :
    k0_pay4 (F := Ideal) x0 x1 j = ∑ p : Fin 2048, (if θ < topProb (row x0 x1 p) then (1 : EReal) else 0) := by
  unfold k0_pay4 k0_pay2
  dsimp only
  show shapeCast S1x1x1 _ _ _ = _
  unfold shapeCast
  rw [total_apply, sum_rows]
  refine Finset.sum_congr rfl fun p _ => ?_
  rw [sitofp_apply, extui_apply, cmpf_apply, pay1_apply]
  exact indicator_ogt _ _

end Cert.KernelIdeal.Block

end
-- ==== Proof.Spec.lean ====
/-
  What both programs compute, stated once over the argument arrays.

  The scores `a0` (2048 × 64 × 512) and the mask `a1` (2048 × 64 × 1) are read as 131072 rows of 512 products: row `r`
  is `a0[r / 64, r % 64, c] · a1[r / 64, r % 64, 0]`. With `topProb` the softmax probability of a row's largest entry
  (RowLaw) and `θ` the threshold, `total` adds that probability over the rows where it exceeds `θ`, `count` counts those
  rows, and the result is `−total / count`, or 0 when no row is counted. The rows regroup into 64 blocks of 2048
  (`sum_blocks`), which is how the kernel's grid visits them; and a count below 2³¹ reads the same as a float sum of
  indicators and as a 32-bit integer sum, which is how the two programs carry it (`close_float`, `close_word`).
-/
import proofs.«150160_g48619029790963_pilotgen1_678_2_alg».proof.Proof.RowLaw
import proofs.«150160_g48619029790963_pilotgen1_678_2_alg».proof.Proof.Consts
import Idealize.ShloMosaic.Lib.ValueIdx
import Idealize.ShloMosaic.Lib.IdealHost
import Idealize.ShloMosaic.Lib.StableHlo.Predicate
import Idealize.ShloMosaic.Lib.Affine

noncomputable section

namespace Cert.Spec

open Idealize.ShloMosaic Idealize.ShloMosaic.ValueIdx Cert.RowLaw
open scoped BigOperators

/-- The confidence threshold, as both programs spell it. -/
abbrev θ : EReal := Ideal.ofBits .f32 0x3F666666#32

abbrev SA0 : Shape := ⟨3, ![2048, 64, 512]⟩
abbrev SA1 : Shape := ⟨3, ![2048, 64, 1]⟩

/-- Row `r` of the flattened problem: (r / 64, r % 64) of the scores, times that row's mask entry. -/
def Row (a0 : SA0.Idx → EReal) (a1 : SA1.Idx → EReal) (r : Fin 131072) : Fin 512 → EReal := fun c =>
  a0 (ix3 ⟨r.val / 64, by omega⟩ ⟨r.val % 64, Nat.mod_lt _ (by decide)⟩ c)
    * a1 (ix3 ⟨r.val / 64, by omega⟩ ⟨r.val % 64, Nat.mod_lt _ (by decide)⟩ 0)

/-- A row's contribution to the total: the largest entry's probability where it exceeds the threshold. -/
def rowTot (x : Fin 512 → EReal) : EReal := if θ < topProb x then topProb x else 0

/-- The sum of the confident rows' probabilities. -/
def total (a0 : SA0.Idx → EReal) (a1 : SA1.Idx → EReal) : EReal := ∑ r : Fin 131072, rowTot (Row a0 a1 r)

/-- The number of confident rows. -/
def count (a0 : SA0.Idx → EReal) (a1 : SA1.Idx → EReal) : ℕ :=
  (Finset.univ.filter fun r : Fin 131072 => θ < topProb (Row a0 a1 r)).card

/-- The loss: minus the mean confident probability, 0 when no row is confident. -/
def result (a0 : SA0.Idx → EReal) (a1 : SA1.Idx → EReal) : EReal :=
  if 0 < count a0 a1 then Ideal.div (-(total a0 a1)) (((count a0 a1 : ℕ) : ℝ) : EReal) else 0

theorem count_le (a0 : SA0.Idx → EReal) (a1 : SA1.Idx → EReal) : count a0 a1 ≤ 131072 :=
  (Finset.card_le_univ _).trans (by simp)

/-- The rows regroup into 64 consecutive blocks of 2048. -/
theorem sum_blocks {M : Type} [AddCommMonoid M] (f : Fin 131072 → M) :
    ∑ r, f r = ∑ g : Fin 64, ∑ p : Fin 2048, f ⟨2048 * g.val + p.val, by have := g.isLt; have := p.isLt; omega⟩ := by
  rw [← Fintype.sum_prod_type' (f := fun (g : Fin 64) (p : Fin 2048) => f ⟨2048 * g.val + p.val, by have := g.isLt; have := p.isLt; omega⟩)]
  refine (Fintype.sum_equiv (finProdFinEquiv (m := 64) (n := 2048)) _ _ fun x => ?_).symm
  refine congrArg f (Fin.ext ?_)
  show 2048 * x.1.val + x.2.val = x.2.val + 2048 * x.1.val
  omega

/-- A float sum of the rows' indicators is the count, as a real number. -/
theorem sum_indicator (a0 : SA0.Idx → EReal) (a1 : SA1.Idx → EReal) :
    ∑ r : Fin 131072, (if θ < topProb (Row a0 a1 r) then (1 : EReal) else 0) = (((count a0 a1 : ℕ) : ℝ) : EReal) := by
  have h : ∀ r : Fin 131072, (if θ < topProb (Row a0 a1 r) then (1 : EReal) else 0)
      = (((if θ < topProb (Row a0 a1 r) then (1 : ℝ) else 0) : ℝ) : EReal) := fun r => by split <;> simp
  rw [Finset.sum_congr rfl fun r _ => h r, ← coe_sum, Finset.sum_boole]
  rfl

/-- The comparison's bit is 1 exactly when the comparison holds. -/
theorem cmp_ogt_eq_one (x y : EReal) : Ideal.cmp .ogt x y = 1#1 ↔ y < x := by
  unfold Ideal.cmp
  by_cases h : y < x <;> simp [h]

/-- THE KERNEL'S CLOSING LINES over a float count `K`: `where(K > 0, −T / max(K, 1), 0)`. -/
theorem close_float (T : EReal) (K : ℕ) :
    Scalar.select (Ideal.cmp .ogt (((K : ℕ) : ℝ) : EReal) 0) (Ideal.div (-T) (max (((K : ℕ) : ℝ) : EReal) 1)) (0 : EReal)
      = if 0 < K then Ideal.div (-T) (((K : ℕ) : ℝ) : EReal) else 0 := by
  have hpos : (0 : EReal) < (((K : ℕ) : ℝ) : EReal) ↔ 0 < K := by
    rw [show (0 : EReal) = ((0 : ℝ) : EReal) from rfl, EReal.coe_lt_coe_iff]; exact Nat.cast_pos
  by_cases hK : 0 < K
  · have h1 : max (((K : ℕ) : ℝ) : EReal) 1 = (((K : ℕ) : ℝ) : EReal) := by
      rw [show (1 : EReal) = ((1 : ℝ) : EReal) from rfl]
      exact max_eq_left (EReal.coe_le_coe_iff.mpr (by exact_mod_cast hK))
    rw [(cmp_ogt_eq_one _ _).mpr (hpos.mpr hK), select_one, h1, if_pos hK]
  · have hn : ¬ (0 : EReal) < (((K : ℕ) : ℝ) : EReal) := fun h => hK (hpos.mp h)
    rw [eq_zero_of_ne_one (fun h => hn ((cmp_ogt_eq_one _ _).mp h)), select_zero, if_neg hK]

/-- THE REFERENCE'S CLOSING LINES over a 32-bit count `W` that holds `K < 2³¹`: `where(W > 0, −T / float(max(W, 1)), 0)`. -/
theorem close_word (T : EReal) (W : BitVec 32) (K : ℕ) (hW : W.toNat = K) (hK : K < 2 ^ 31) :
    Scalar.select (IntOp.cmpi .sgt W 0#32) (Ideal.div (-T) (FloatOps.sitofp (F := Ideal) .f32 (IntOp.maxsi W 1#32))) (0 : EReal)
      = if 0 < K then Ideal.div (-T) (((K : ℕ) : ℝ) : EReal) else 0 := by
  have hWi : W.toInt = (K : ℤ) := by
    rw [StableHlo.Predicate.toInt_eq_toNat_of_lt (by omega), hW]
  have h0 : (0#32 : BitVec 32).toInt = 0 := by decide
  have h1 : (1#32 : BitVec 32).toInt = 1 := by decide
  by_cases hpos : 0 < K
  · have hsgt : IntOp.cmpi .sgt W 0#32 = 1#1 := IntOp.cmpi_sgt.mpr (by rw [hWi, h0]; exact_mod_cast hpos)
    have hmax : IntOp.maxsi W 1#32 = W ∨ (IntOp.maxsi W 1#32 = 1#32 ∧ K = 1) := by
      unfold IntOp.maxsi
      by_cases hs : (1#32 : BitVec 32).slt W
      · left; rw [if_pos hs]
      · right
        rw [if_neg hs]
        refine ⟨rfl, ?_⟩
        rw [BitVec.slt_iff_toInt_lt, hWi, h1] at hs
        omega
    have hcast : FloatOps.sitofp (F := Ideal) .f32 (IntOp.maxsi W 1#32) = (((K : ℕ) : ℝ) : EReal) := by
      show (((IntOp.maxsi W 1#32).toInt : ℝ) : EReal) = _
      rcases hmax with e | ⟨e, rfl⟩
      · rw [e, hWi]; norm_cast
      · rw [e, h1]; norm_cast
    rw [hsgt, hcast, select_one, if_pos hpos]
  · have hz : IntOp.cmpi .sgt W 0#32 = 0#1 := eq_zero_of_ne_one fun h => by
      have := IntOp.cmpi_sgt.mp h
      rw [hWi, h0] at this
      exact hpos (by exact_mod_cast this)
    rw [hz, select_zero, if_neg hpos]

end Cert.Spec

end
-- ==== Proof.KernelValue.lean ====
/-
  The kernel program's result, read off its frame run.

  @main recasts the scores as 131072 rows of 512 and the mask as a column (`V_v0`, `V_v1`), launches the kernel over 64
  grid points, and closes with host lines. Point `t` is handed rows 2048·t … 2048·t + 2047 of both (`xblk_apply`,
  `mblk_apply`), so row `p` of its block is row 2048·t + p of the flattened problem (`row_eq`); by the block lemmas it
  stores, at every entry of tile `t` of the two result arrays, its rows' confident probabilities added (`tot`) and the
  number of its confident rows (`cnt`). The tiles cover the arrays, so after the run the arrays hold those values tile by
  tile (`final2`, `final3`). The host lines take entry (g, 0, 0) of each tile, add the 64 values of each array — all rows'
  confident probabilities and the count of confident rows, since the rows regroup into the blocks — and form
  `where(count > 0, −total / max(count, 1), 0)`: the specified loss (`tail_eq`). `run` restates the generated frame run
  with the result buffer at that value.
-/
import proofs.«150160_g48619029790963_pilotgen1_678_2_alg».proof.Proof.Gen.KernelIdeal.Frame
import proofs.«150160_g48619029790963_pilotgen1_678_2_alg».proof.Proof.KernelBlock
import proofs.«150160_g48619029790963_pilotgen1_678_2_alg».proof.Proof.Spec
import Idealize.ShloMosaic.Lib.Pipeline.Value
import Idealize.ShloMosaic.Lib.StableHlo.Run
import Idealize.ShloMosaic.Lib.Tactic
import Idealize.ShloMosaic.Lib.ValueIdxRank1
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Block Idealize.ShloMosaic.ValueIdx Cert.RowLaw
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The two argument arrays, at their literal types. -/
abbrev a0 (c : Dev nD) : FVec Ideal S2048x64x512 .f32 := m ((c : Thread nD τ).loc main_arg0)
abbrev a1 (c : Dev nD) : FVec Ideal S2048x64x1 .f32 := m ((c : Thread nD τ).loc main_arg1)

/-- The flattened scores the region finds: the first argument recast as 131072 rows. -/
theorem V_v0 (c : Dev nD) : (V m c main_v0 : S131072x512.Idx → EReal)
    = shapeCast S131072x512 (a0 m c) shapeCasts_S2048x64x512_S131072x512 := by
  show StableHlo.after hostOps0 (fun b => m (c, b)) (Proc.devRef .tc main_v0) = _
  after_results
  rfl

/-- The flattened mask column the region finds. -/
theorem V_v1 (c : Dev nD) : (V m c main_v1 : S131072x1.Idx → EReal)
    = shapeCast S131072x1 (a1 m c) shapeCasts_S2048x64x1_S131072x1 := by
  show StableHlo.after hostOps0 (fun b => m (c, b)) (Proc.devRef .tc main_v1) = _
  after_results
  rfl

/-! ## The windows' blocks -/

/-- The printed index maps, decided once over the grid: point `t` takes row block `t` of both inputs and tile `t` of both outputs. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem N_eq : cfg0.N = 64 := N_0

/-- The block of scores and the block of mask entries at point `t`, at their literal types. -/
abbrev xblk (c : Dev nD) (t : Fin cfg0.N) : FVec Ideal S2048x512 .f32 := iblk m c 0 t
abbrev mblk (c : Dev nD) (t : Fin cfg0.N) : FVec Ideal S2048x1 .f32 := iblk m c 1 t

/-- Row `2048·t + p` of the flattened problem. -/
abbrev rowOf (t : Fin cfg0.N) (p : Fin 2048) : Fin 131072 :=
  ⟨2048 * t.val + p.val, by have := t.isLt; have := p.isLt; have := N_eq; omega⟩

/-- Entry (p, k) of the block of scores at point `t` is entry (2048·t + p, k) of the flattened scores. -/
theorem xblk_apply (c : Dev nD) (t : Fin cfg0.N) (p : Fin 2048) (k : Fin 512) :
    xblk m c t (ix2 p k) = (V m c main_v0 : S131072x512.Idx → EReal) (ix2 (rowOf t p) k) := by
  obtain ⟨e0, e1, -⟩ := idx_facts t
  unfold xblk iblk
  rw [View.read_apply]
  show V m c main_v0 _ = V m c main_v0 _
  congr 1
  funext a
  apply Fin.ext
  match a with
  | ⟨0, _⟩ => show win0_0.index t 0 * 2048 + 1 * p.val = 2048 * t.val + p.val; rw [e0]; omega
  | ⟨1, _⟩ => show win0_0.index t 1 * 512 + 1 * k.val = k.val; rw [e1]; omega

/-- Entry (p, 0) of the block of mask entries at point `t` is entry (2048·t + p, 0) of the flattened mask column. -/
theorem mblk_apply (c : Dev nD) (t : Fin cfg0.N) (p : Fin 2048) :
    mblk m c t (ix2 p 0) = (V m c main_v1 : S131072x1.Idx → EReal) (ix2 (rowOf t p) 0) := by
  obtain ⟨-, -, e0, e1, -⟩ := idx_facts t
  unfold mblk iblk
  rw [View.read_apply]
  show V m c main_v1 _ = V m c main_v1 _
  congr 1
  funext a
  apply Fin.ext
  match a with
  | ⟨0, _⟩ => show win0_1.index t 0 * 2048 + 1 * p.val = 2048 * t.val + p.val; rw [e0]; omega
  | ⟨1, _⟩ => show win0_1.index t 1 * 1 + 1 * 0 = 0; rw [e1]

/-! ## The blocks' rows are rows of the flattened problem -/

/-- Entry (r, k) of the flattened scores is entry (r / 64, r % 64, k) of the scores. -/
theorem v0_apply (c : Dev nD) (r : Fin 131072) (k : Fin 512) :
    (V m c main_v0 : S131072x512.Idx → EReal) (ix2 r k)
      = a0 m c (ix3 ⟨r.val / 64, by have := r.isLt; omega⟩ ⟨r.val % 64, Nat.mod_lt _ (by decide)⟩ k) := by
  rw [V_v0]
  exact shapeCast_apply _ _ _ _ (by
    rw [Shape.rowMajor_val_three, Shape.rowMajor_val_two]
    show (r.val / 64 * 64 + r.val % 64) * 512 + k.val = r.val * 512 + k.val
    omega)

/-- Entry (r, 0) of the flattened mask column is entry (r / 64, r % 64, 0) of the mask. -/
theorem v1_apply (c : Dev nD) (r : Fin 131072) :
    (V m c main_v1 : S131072x1.Idx → EReal) (ix2 r 0)
      = a1 m c (ix3 ⟨r.val / 64, by have := r.isLt; omega⟩ ⟨r.val % 64, Nat.mod_lt _ (by decide)⟩ 0) := by
  rw [V_v1]
  exact shapeCast_apply _ _ _ _ (by
    rw [Shape.rowMajor_val_three, Shape.rowMajor_val_two]
    show (r.val / 64 * 64 + r.val % 64) * 1 + 0 = r.val * 1 + 0
    omega)

/-- Row `p` of the block at point `t` is row `2048·t + p` of the flattened problem. -/
theorem row_eq (c : Dev nD) (t : Fin cfg0.N) (p : Fin 2048) :
    row (xblk m c t) (mblk m c t) p = Cert.Spec.Row (a0 m c) (a1 m c) (rowOf t p) := by
  funext k
  unfold row Cert.Spec.Row
  rw [xblk_apply, mblk_apply, v0_apply, v1_apply]

/-! ## What each point stores, and the two result arrays -/

/-- The first value point `t` stores: its 2048 rows' confident probabilities added. -/
def tot (c : Dev nD) (t : Fin cfg0.N) : EReal :=
  ∑ p : Fin 2048, Cert.Spec.rowTot (Cert.Spec.Row (a0 m c) (a1 m c) (rowOf t p))

/-- The second: the number of its confident rows, as a float sum of indicators. -/
def cnt (c : Dev nD) (t : Fin cfg0.N) : EReal :=
  ∑ p : Fin 2048, (if Cert.Spec.θ < topProb (Cert.Spec.Row (a0 m c) (a1 m c) (rowOf t p)) then (1 : EReal) else 0)

theorem pay3_at (c : Dev nD) (t : Fin cfg0.N) (j : S1x8x128.Idx) :
    k0_pay3 (F := Ideal) (xblk m c t) (mblk m c t) j = tot m c t := by
  rw [pay3_apply]
  unfold tot Cert.Spec.rowTot
  exact Finset.sum_congr rfl fun p _ => by rw [row_eq]

theorem pay4_at (c : Dev nD) (t : Fin cfg0.N) (j : S1x8x128.Idx) :
    k0_pay4 (F := Ideal) (xblk m c t) (mblk m c t) j = cnt m c t := by
  rw [pay4_apply]
  unfold cnt
  exact Finset.sum_congr rfl fun p _ => by rw [row_eq]

/-- The point whose tile holds index `i` of a result array. -/
abbrev ptOf (i : S64x8x128.Idx) : Fin cfg0.N := ⟨(i 0).val, by have h : (i 0).val < 64 := (i 0).isLt; have := N_eq; omega⟩

/-- The first result array after the run: tile `g` holds point `g`'s sum at every entry. -/
def G2 (c : Dev nD) : S64x8x128.Idx → EReal := fun i => tot m c (ptOf i)
/-- The second likewise. -/
def G3 (c : Dev nD) : S64x8x128.Idx → EReal := fun i => cnt m c (ptOf i)

/-- WHAT POINT `t` WRITES BACK to the first result array is tile `t` of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  unfold out0_2
  rw [View.canon_unit_zero hz3]
  simp only [View.ld_unit_zero (S := S2048x512) hz2, View.ld_unit_zero (S := S2048x1) hz2]
  obtain ⟨-, -, -, -, e0, -⟩ := idx_facts t
  funext j
  show k0_pay3 (F := Ideal) (xblk m c t) (mblk m c t) j = G2 m c (((cfg0.win 2).blk t).view.emb j)
  rw [pay3_at]
  unfold G2
  refine congrArg (tot m c) (Fin.ext ?_)
  show t.val = win0_2.index t 0 * 1 + 1 * (j 0).val
  have hj : (j 0).val < 1 := (j 0).isLt
  omega

/-- The same for the second result array. -/
theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz3]
  simp only [View.ld_unit_zero (S := S2048x512) hz2, View.ld_unit_zero (S := S2048x1) hz2]
  obtain ⟨-, -, -, -, -, -, -, e0, -⟩ := idx_facts t
  funext j
  show k0_pay4 (F := Ideal) (xblk m c t) (mblk m c t) j = G3 m c (((cfg0.win 3).blk t).view.emb j)
  rw [pay4_at]
  unfold G3
  refine congrArg (cnt m c) (Fin.ext ?_)
  show t.val = win0_3.index t 0 * 1 + 1 * (j 0).val
  have hj : (j 0).val < 1 := (j 0).isLt
  omega

/-- An index of a result array is in point `t`'s tile iff each coordinate is in the tile's range on its axis. -/
theorem mem_blk2 (t : Fin cfg0.N) (i : S64x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2_0).slice (win0_2.rect t)).set ↔ _
  rw [View.set_slice_whole, Rect.mem_set_unit]
  exact Iff.rfl

theorem mem_blk3 (t : Fin cfg0.N) (i : S64x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v2_1).slice (win0_3.rect t)).set ↔ _
  rw [View.set_slice_whole, Rect.mem_set_unit]
  exact Iff.rfl

/-- Every index of the first result array lies in the tile of the point numbered by its first coordinate. -/
theorem cover2 (i : S64x8x128.Idx) : ∃ t : Fin cfg0.N, (cfg0.win 2).flush t = true ∧ i ∈ ((cfg0.win 2).blk t).view.set := by
  refine ⟨ptOf i, flush0_2 _, ?_⟩
  rw [mem_blk2]
  obtain ⟨-, -, -, -, e0, e1, e2, -⟩ := idx_facts (ptOf i)
  have e0' : win0_2.index (ptOf i) 0 = (i 0).val := e0
  have h1 : (i 1).val < 8 := (i 1).isLt
  have h2 : (i 2).val < 128 := (i 2).isLt
  intro a
  match a with
  | ⟨0, _⟩ => show win0_2.index (ptOf i) 0 * 1 ≤ (i 0).val ∧ (i 0).val < win0_2.index (ptOf i) 0 * 1 + 1; rw [e0']; omega
  | ⟨1, _⟩ => show win0_2.index (ptOf i) 1 * 8 ≤ (i 1).val ∧ (i 1).val < win0_2.index (ptOf i) 1 * 8 + 8; rw [e1]; omega
  | ⟨2, _⟩ => show win0_2.index (ptOf i) 2 * 128 ≤ (i 2).val ∧ (i 2).val < win0_2.index (ptOf i) 2 * 128 + 128; rw [e2]; omega

theorem cover3 (i : S64x8x128.Idx) : ∃ t : Fin cfg0.N, (cfg0.win 3).flush t = true ∧ i ∈ ((cfg0.win 3).blk t).view.set := by
  refine ⟨ptOf i, flush0_3 _, ?_⟩
  rw [mem_blk3]
  obtain ⟨-, -, -, -, -, -, -, e0, e1, e2⟩ := idx_facts (ptOf i)
  have e0' : win0_3.index (ptOf i) 0 = (i 0).val := e0
  have h1 : (i 1).val < 8 := (i 1).isLt
  have h2 : (i 2).val < 128 := (i 2).isLt
  intro a
  match a with
  | ⟨0, _⟩ => show win0_3.index (ptOf i) 0 * 1 ≤ (i 0).val ∧ (i 0).val < win0_3.index (ptOf i) 0 * 1 + 1; rw [e0']; omega
  | ⟨1, _⟩ => show win0_3.index (ptOf i) 1 * 8 ≤ (i 1).val ∧ (i 1).val < win0_3.index (ptOf i) 1 * 8 + 8; rw [e1]; omega
  | ⟨2, _⟩ => show win0_3.index (ptOf i) 2 * 128 ≤ (i 2).val ∧ (i 2).val < win0_3.index (ptOf i) 2 * 128 + 128; rw [e2]; omega

/-- The two result arrays after the run. -/
theorem final2 (c : Dev nD) : (dats m 0 c).arrAt 2 cfg0.N = G2 m c :=
  (dats m 0 c).arrAt_eq_of_cover 2 (G2 m c) (fun t _ => flushed2_eq m c t) cover2
theorem final3 (c : Dev nD) : (dats m 0 c).arrAt 3 cfg0.N = G3 m c :=
  (dats m 0 c).arrAt_eq_of_cover 3 (G3 m c) (fun t _ => flushed3_eq m c t) cover3

/-! ## The lines after the region -/

/-- The host lines that read a result array: the first entry of each of the 64 tiles, added from zero. -/
theorem tiles_sum (arr : FVec Ideal S64x8x128 .f32) (j : S_.Idx) :
    Host.reduceAdd (F := Ideal) (shapeCast S64 (extractStridedSlice S64x1x1 ![0, 0, 0] arr slices_S64x8x128_S64x1x1_0_0_0) shapeCasts_S64x1x1_S64)
      (constant S_ .f32 0x00000000#32) reducesTo_S64_S_d0 h_S_ j = ∑ g : Fin 64, arr (ix3 g 0 0) := by
  show Ideal.hostReduceAdd reducesTo_S64_S_d0 _ (Ideal.ofBits .f32 0x00000000#32) j = _
  rw [Ideal.hostReduceAdd_total reducesTo_S64_S_d0 (fun b => b.elim0), Ideal.ofBits_zero_f32, zero_add,
    ← Equiv.sum_comp (idxEquiv1 (n := 64)).symm]
  refine Finset.sum_congr rfl fun g _ => ?_
  show shapeCast S64 _ shapeCasts_S64x1x1_S64 (ix1 g) = _
  refine (shapeCast_apply _ shapeCasts_S64x1x1_S64 (ix1 g) (ix3 g 0 0) (by
    rw [Shape.rowMajor_val_three, Shape.rowMajor_val_one]
    show (g.val * 1 + 0) * 1 + 0 = g.val
    omega)).trans ?_
  exact extractStridedSlice_apply _ arr slices_S64x8x128_S64x1x1_0_0_0 (ix3 g 0 0) (ix3 g 0 0) (fun a => by
    match a with
    | ⟨0, _⟩ => show g.val = 0 + g.val; omega
    | ⟨1, _⟩ => rfl
    | ⟨2, _⟩ => rfl)

/-- The tiles' sums of the first result array add up to the total over all rows. -/
theorem sum_tot (c : Dev nD) : ∑ g : Fin 64, G2 m c (ix3 g 0 0) = Cert.Spec.total (a0 m c) (a1 m c) := by
  unfold Cert.Spec.total
  rw [Cert.Spec.sum_blocks]
  rfl

/-- The tiles' counts add up to the number of confident rows. -/
theorem sum_cnt (c : Dev nD) : ∑ g : Fin 64, G3 m c (ix3 g 0 0) = (((Cert.Spec.count (a0 m c) (a1 m c) : ℕ) : ℝ) : EReal) := by
  rw [← Cert.Spec.sum_indicator, Cert.Spec.sum_blocks]
  rfl

/-- What the lines after the region find in the two result arrays. -/
theorem arr2_eq (c : Dev nD) :
    Pipeline.withArrays (cfgs 0).spec c (V0 m c) (fun w => (dats m 0 c).arrAt w (cfgs 0).N) (Proc.devRef .tc main_v2_0) = G2 m c :=
  (Pipeline.withArrays_arr spec0 launch0.win.arr_inj c _ _ 2).trans (final2 m c)
theorem arr3_eq (c : Dev nD) :
    Pipeline.withArrays (cfgs 0).spec c (V0 m c) (fun w => (dats m 0 c).arrAt w (cfgs 0).N) (Proc.devRef .tc main_v2_1) = G3 m c :=
  (Pipeline.withArrays_arr spec0 launch0.win.arr_inj c _ _ 3).trans (final3 m c)

/-- THE KERNEL PROGRAM'S RESULT: the lines after the region, over the two result arrays, give the specified loss. -/
theorem tail_eq (c : Dev nD) :
    Pipeline.afterTail₀ cfgs (dats m) 0 (V0 m) [hostOps1, hostOps1_1] c main_v13 = fun _ => Cert.Spec.result (a0 m c) (a1 m c) := by
  unfold Pipeline.afterTail₀
  simp only [hostOps1, hostOps1_1, List.flatten_cons, List.flatten_nil, List.append_nil, List.cons_append, List.nil_append]
  after_results
  rw [arr2_eq, arr3_eq]
  funext x
  have hT := tiles_sum (G2 m c) x
  have hC := tiles_sum (G3 m c) x
  rw [sum_tot] at hT
  rw [sum_cnt] at hC
  show Scalar.select (Ideal.cmp .ogt
      (Host.reduceAdd (F := Ideal) (shapeCast S64 (extractStridedSlice S64x1x1 ![0, 0, 0] (G3 m c) slices_S64x8x128_S64x1x1_0_0_0) shapeCasts_S64x1x1_S64)
        (constant S_ .f32 0x00000000#32) reducesTo_S64_S_d0 h_S_ x) (Ideal.ofBits .f32 0x00000000#32))
    (Ideal.div (-(Host.reduceAdd (F := Ideal) (shapeCast S64 (extractStridedSlice S64x1x1 ![0, 0, 0] (G2 m c) slices_S64x8x128_S64x1x1_0_0_0) shapeCasts_S64x1x1_S64)
        (constant S_ .f32 0x00000000#32) reducesTo_S64_S_d0 h_S_ x))
      (max (Host.reduceAdd (F := Ideal) (shapeCast S64 (extractStridedSlice S64x1x1 ![0, 0, 0] (G3 m c) slices_S64x8x128_S64x1x1_0_0_0) shapeCasts_S64x1x1_S64)
        (constant S_ .f32 0x00000000#32) reducesTo_S64_S_d0 h_S_ x) (Ideal.ofBits .f32 0x3F800000#32)))
    (Ideal.ofBits .f32 0x00000000#32) = _
  rw [hT, hC, Ideal.ofBits_zero_f32, Ideal.ofBits_one_f32]
  exact Cert.Spec.close_float _ _

/-! ## The run -/

/-- The frame run, read: the result buffer at the specified loss of the argument arrays, the arguments unchanged. -/
theorem run : θ_run defs (onTc (τ := τ) (main (F := Ideal))) ⟨m, fun _ => 0, ρ⟩ fun r => ∀ c : Dev nD,
      r.2.mem ((c : Thread nD τ).loc main_v13) = (fun _ => Cert.Spec.result (a0 m c) (a1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's run, read in two stretches.

  The first seventeen operations compute the softmax probabilities and recast them as 131072 rows of 512 (`main_v13`);
  the remaining twenty read nothing but that array: they threshold it, count and add the confident entries, and form the
  loss. Each stretch is read over an arbitrary valuation of the buffers, so that the second is a function `tailOf` of the
  probabilities alone and no term ever spells the probabilities three times. Joined, every weakly fair execution of @main
  ends with the result buffer at the stages' `val_main_v25` of the argument arrays, and the arguments unchanged.
-/
import proofs.«150160_g48619029790963_pilotgen1_678_2_alg».proof.Proof.RefRead
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running one list of operations after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first stretch: the probabilities. -/
abbrev opsA : List (HloOp τ sig (Elt F)) :=
  [ unary main_arg1 main_v0 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_arg0 main_v0 main_v1 (mulf : (⟨S2048x64x512, .f32⟩ : BufTy).Contents (Elt F) → (⟨S2048x64x512, .f32⟩ : BufTy).Contents (Elt F) → (⟨S2048x64x512, .f32⟩ : BufTy).Contents (Elt F)),
    nullary main_cst (constant S_ .f32 0xFF800000#32),
    binary main_v1 main_cst main_v2 ((fun x v => Host.reduce FloatOps.maximumf x v reducesTo_S2048x64x512_S2048x64_d2 h_S_) : (⟨S2048x64x512, .f32⟩ : BufTy).Contents (Elt F) → (⟨S_, .f32⟩ : BufTy).Contents (Elt F) → (⟨S2048x64, .f32⟩ : BufTy).Contents (Elt F)),
    nullary main_cst_0 (constant S_ .f32 0xFF800000#32),
    unary main_cst_0 main_v3 (broadcastInDim S2048x64 ![] bcast_S_S2048x64 : (⟨S_, .f32⟩ : BufTy).Contents (Elt F) → (⟨S2048x64, .f32⟩ : BufTy).Contents (Elt F)),
    binary main_v3 main_v2 main_v4 (maximumf : (⟨S2048x64, .f32⟩ : BufTy).Contents (Elt F) → (⟨S2048x64, .f32⟩ : BufTy).Contents (Elt F) → (⟨S2048x64, .f32⟩ : BufTy).Contents (Elt F)),
    unary main_v4 main_v5 (broadcastInDim S2048x64x1 ![0, 1] bcast_S2048x64_S2048x64x1_0_1 : (⟨S2048x64, .f32⟩ : BufTy).Contents (Elt F) → (⟨S2048x64x1, .f32⟩ : BufTy).Contents (Elt F)),
    unary main_v5 main_v6 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_v1 main_v6 main_v7 (subf : (⟨S2048x64x512, .f32⟩ : BufTy).Contents (Elt F) → (⟨S2048x64x512, .f32⟩ : BufTy).Contents (Elt F) → (⟨S2048x64x512, .f32⟩ : BufTy).Contents (Elt F)),
    unary main_v7 main_v8 (Host.exp : (⟨S2048x64x512, .f32⟩ : BufTy).Contents (Elt F) → (⟨S2048x64x512, .f32⟩ : BufTy).Contents (Elt F)),
    nullary main_cst_1 (constant S_ .f32 0x00000000#32),
    binary main_v8 main_cst_1 main_v9 ((fun x v => Host.reduceAdd x v reducesTo_S2048x64x512_S2048x64_d2 h_S_) : (⟨S2048x64x512, .f32⟩ : BufTy).Contents (Elt F) → (⟨S_, .f32⟩ : BufTy).Contents (Elt F) → (⟨S2048x64, .f32⟩ : BufTy).Contents (Elt F)),
    unary main_v9 main_v10 (broadcastInDim S2048x64x1 ![0, 1] bcast_S2048x64_S2048x64x1_0_1 : (⟨S2048x64, .f32⟩ : BufTy).Contents (Elt F) → (⟨S2048x64x1, .f32⟩ : BufTy).Contents (Elt F)),
    unary main_v10 main_v11 (broadcastInDim S2048x64x512 ![0, 1, 2] bcast_S2048x64x1_S2048x64x512_0_1_2 : (⟨S2048x64x1, .f32⟩ : BufTy).Contents (Elt F) → (⟨S2048x64x512, .f32⟩ : BufTy).Contents (Elt F)),
    binary main_v8 main_v11 main_v12 (Host.divf : (⟨S2048x64x512, .f32⟩ : BufTy).Contents (Elt F) → (⟨S2048x64x512, .f32⟩ : BufTy).Contents (Elt F) → (⟨S2048x64x512, .f32⟩ : BufTy).Contents (Elt F)),
    reshape main_v12 main_v13 rfl shapeCasts_S2048x64x512_S131072x512 ]

/-- The second stretch but for its last operation: threshold, count, add, negate, divide. -/
abbrev opsB : List (HloOp τ sig (Elt F)) :=
  [ nullary main_cst_2 (constant S_ .f32 0x3F666666#32),
    unary main_cst_2 main_v14 (broadcastInDim S131072x512 ![] bcast_S_S131072x512 : (⟨S_, .f32⟩ : BufTy).Contents (Elt F) → (⟨S131072x512, .f32⟩ : BufTy).Contents (Elt F)),
    binary main_v13 main_v14 main_v15 (cmpf .ogt : (⟨S131072x512, .f32⟩ : BufTy).Contents (Elt F) → (⟨S131072x512, .f32⟩ : BufTy).Contents (Elt F) → (⟨S131072x512, .i1⟩ : BufTy).Contents (Elt F)),
    unary main_v15 main_v16 ((extui 32 · natLt_1_32) : (⟨S131072x512, .i1⟩ : BufTy).Contents (Elt F) → (⟨S131072x512, .i32⟩ : BufTy).Contents (Elt F)),
    nullary main_c (constantI S_ 32 0#32),
    binary main_v16 main_c main_v17 ((fun x v => Host.reduce IntOp.addi x v reducesTo_S131072x512_S_d0_1 h_S_) : (⟨S131072x512, .i32⟩ : BufTy).Contents (Elt F) → (⟨S_, .i32⟩ : BufTy).Contents (Elt F) → (⟨S_, .i32⟩ : BufTy).Contents (Elt F)),
    nullary main_cst_3 (constant S_ .f32 0x00000000#32),
    TRef.unary (TRef.of (T := ⟨S_, .f32⟩) main_cst_3) (TRef.of (T := ⟨S131072x512, .f32⟩) main_call0_v0) (broadcastInDim S131072x512 ![] bcast_S_S131072x512),
    TRef.ternary (TRef.of (T := ⟨S131072x512, .i1⟩) main_v15) (TRef.of (T := ⟨S131072x512, .f32⟩) main_v13) (TRef.of (T := ⟨S131072x512, .f32⟩) main_call0_v0) (TRef.of (T := ⟨S131072x512, .f32⟩) main_v18) select,
    nullary main_cst_4 (constant S_ .f32 0x00000000#32),
    binary main_v18 main_cst_4 main_v19 ((fun x v => Host.reduceAdd x v reducesTo_S131072x512_S_d0_1 h_S_) : (⟨S131072x512, .f32⟩ : BufTy).Contents (Elt F) → (⟨S_, .f32⟩ : BufTy).Contents (Elt F) → (⟨S_, .f32⟩ : BufTy).Contents (Elt F)),
    unary main_v19 main_v20 (Host.negf : (⟨S_, .f32⟩ : BufTy).Contents (Elt F) → (⟨S_, .f32⟩ : BufTy).Contents (Elt F)),
    nullary main_c_5 (constantI S_ 32 1#32),
    binary main_v17 main_c_5 main_v21 (maxsi : (⟨S_, .i32⟩ : BufTy).Contents (Elt F) → (⟨S_, .i32⟩ : BufTy).Contents (Elt F) → (⟨S_, .i32⟩ : BufTy).Contents (Elt F)),
    unary main_v21 main_v22 (sitofp .f32 : (⟨S_, .i32⟩ : BufTy).Contents (Elt F) → (⟨S_, .f32⟩ : BufTy).Contents (Elt F)),
    binary main_v20 main_v22 main_v23 (Host.divf : (⟨S_, .f32⟩ : BufTy).Contents (Elt F) → (⟨S_, .f32⟩ : BufTy).Contents (Elt F) → (⟨S_, .f32⟩ : BufTy).Contents (Elt F)),
    nullary main_c_6 (constantI S_ 32 0#32),
    binary main_v17 main_c_6 main_v24 (cmpi .sgt : (⟨S_, .i32⟩ : BufTy).Contents (Elt F) → (⟨S_, .i32⟩ : BufTy).Contents (Elt F) → (⟨S_, .i1⟩ : BufTy).Contents (Elt F)),
    nullary main_cst_7 (constant S_ .f32 0x00000000#32) ]

/-- The last operation: the `where` that answers 0 when no entry is counted. -/
abbrev opLast : HloOp τ sig (Elt F) :=
  TRef.ternary (TRef.of (T := ⟨S_, .i1⟩) main_v24) (TRef.of (T := ⟨S_, .f32⟩) main_v23) (TRef.of (T := ⟨S_, .f32⟩) main_cst_7) (TRef.of (T := ⟨S_, .f32⟩) main_v25) select

theorem ops_split : (ops : List (HloOp τ sig (Elt F))) = opsA ++ (opsB ++ [opLast]) := rfl

/-- After the first stretch `main_v13` holds the probabilities, as the stages spell them. -/
theorem stretchA (V : Valuation τ sig (Elt F)) :
    after opsA V (Proc.devRef .tc main_v13)
      = val_main_v13 (F := F) (V (Proc.devRef .tc main_arg0)) (V (Proc.devRef .tc main_arg1)) := by
  after_results_simp
  rfl

/-- The number of entries above the threshold, as the 32-bit sum the reference forms. -/
def cntOf (p : (⟨S131072x512, .f32⟩ : BufTy).Contents (Elt F)) : (⟨S_, .i32⟩ : BufTy).Contents (Elt F) :=
  Host.reduce IntOp.addi (extui 32 (cmpf .ogt p (val_main_v14 (F := F))) natLt_1_32) (val_main_c (F := F)) reducesTo_S131072x512_S_d0_1 h_S_

/-- The sum of the entries above the threshold. -/
def totOf (p : (⟨S131072x512, .f32⟩ : BufTy).Contents (Elt F)) : (⟨S_, .f32⟩ : BufTy).Contents (Elt F) :=
  Host.reduceAdd (select (cmpf .ogt p (val_main_v14 (F := F))) p (val_main_call0_v0 (F := F))) (val_main_cst_4 (F := F)) reducesTo_S131072x512_S_d0_1 h_S_

/-- The loss as a function of the array of probabilities. -/
def tailOf (p : (⟨S131072x512, .f32⟩ : BufTy).Contents (Elt F)) : (⟨S_, .f32⟩ : BufTy).Contents (Elt F) :=
  select (cmpi .sgt (cntOf p) (val_main_c_6 (F := F)))
    (Host.divf (Host.negf (totOf p)) (sitofp .f32 (maxsi (cntOf p) (val_main_c_5 (F := F)))))
    (val_main_cst_7 (F := F))

/-- The last stage is that function of the stage of probabilities. -/
theorem val_eq_tail (x0 : (⟨S2048x64x512, .f32⟩ : BufTy).Contents (Elt F)) (x1 : (⟨S2048x64x1, .f32⟩ : BufTy).Contents (Elt F)) :
    val_main_v25 (F := F) x0 x1 = tailOf (val_main_v13 (F := F) x0 x1) := rfl

/-! The second stretch, buffer by buffer. The two folds stay folded while the sides are compared: the comparison never looks
    inside them. -/

attribute [local irreducible] Host.reduce Host.reduceAdd in
theorem stretchB_cond (W : Valuation τ sig (Elt F)) :
    after opsB W (Proc.devRef .tc main_v24) = cmpi .sgt (cntOf (W (Proc.devRef .tc main_v13))) (val_main_c_6 (F := F)) := by
  after_results_simp
  rfl

attribute [local irreducible] Host.reduce Host.reduceAdd in
theorem stretchB_quot (W : Valuation τ sig (Elt F)) :
    after opsB W (Proc.devRef .tc main_v23)
      = Host.divf (Host.negf (totOf (W (Proc.devRef .tc main_v13)))) (sitofp .f32 (maxsi (cntOf (W (Proc.devRef .tc main_v13))) (val_main_c_5 (F := F)))) := by
  after_results_simp
  rfl

theorem stretchB_zero (W : Valuation τ sig (Elt F)) :
    after opsB W (Proc.devRef .tc main_cst_7) = val_main_cst_7 (F := F) := by
  after_results_simp
  rfl

/-- The last operation selects between the quotient and zero. -/
theorem last_result (W : Valuation τ sig (Elt F)) :
    after [opLast] W (Proc.devRef .tc main_v25)
      = select (W (Proc.devRef .tc main_v24)) (W (Proc.devRef .tc main_v23)) (W (Proc.devRef .tc main_cst_7)) := by
  after_results_simp
  rfl

/-- After the second stretch the result buffer holds `tailOf` of what `main_v13` held before it. -/
theorem stretchB (W : Valuation τ sig (Elt F)) :
    after (opsB ++ [opLast]) W (Proc.devRef .tc main_v25) = tailOf (W (Proc.devRef .tc main_v13)) := by
  rw [after_append, last_result, stretchB_cond, stretchB_quot, stretchB_zero]
  rfl

/-- THE WHOLE LINE: the result buffer after @main's operations is the last stage of the arguments' contents. -/
theorem out_eq (V : Valuation τ sig (Elt F)) :
    after ops V (Proc.devRef .tc main_v25)
      = val_main_v25 (F := F) (V (Proc.devRef .tc main_arg0)) (V (Proc.devRef .tc main_arg1)) := by
  rw [ops_split, after_append, stretchB, stretchA, val_eq_tail]

/-- On every device, for any float values, from any memory with zero counters: every weakly fair execution of @main
    terminates with the result at the stages' last value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out_eq (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference program's result, read off its stages.

  Row (t, b) of the products `pred · mask` is a row of 512 extended reals. Stage by stage the reference takes the row's
  largest entry (a maximum from −∞, then once more against −∞: `v4_eq`), the exponentials of the distances below it
  (`v8_eq`), their sum (`v9_eq`) and the quotients (`v12_eq`): the softmax probabilities `prob` of the row law; recast as
  131072 rows of 512, entry (r, c) is the probability of entry `c` of row `r` of the flattened problem (`v13_eq`). The
  remaining lines read only that array: they keep and add the probabilities above the threshold — by the row law, row by
  row the largest entry's probability where it exceeds the threshold (`total_eq`) —, count them in 32 bits — one per
  confident row, so at most 131072, far below where the word wraps (`count_word`) —, and form
  `where(count > 0, −total / float(max(count, 1)), 0)`: the specified loss (`result_eq`).
-/
import proofs.«150160_g48619029790963_pilotgen1_678_2_alg».proof.Proof.RefRun
import Idealize.ShloMosaic.Lib.StableHlo.Predicate
import Idealize.ShloMosaic.Lib.IdealHost
import proofs.«150160_g48619029790963_pilotgen1_678_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.HandValue

open Cert.ReferenceIdeal Cert.ReferenceIdeal.Gen Idealize.ShloMosaic Idealize.ShloMosaic.ValueIdx Cert.RowLaw
open Cert.ReferenceIdeal.ReadP
open scoped BigOperators

variable (x0 : FVec Ideal S2048x64x512 .f32) (x1 : FVec Ideal S2048x64x1 .f32)

/-- Row (t, b) of the products the reference forms. -/
def rowAt (i : S2048x64.Idx) : Fin 512 → EReal := fun k => val_main_v1 (F := Ideal) x0 x1 (idx_main_v9 i k)

theorem idx5_6_9 (i : S2048x64.Idx) (k : Fin 512) : idx_main_v5 (idx_main_v6 (idx_main_v9 i k)) = i :=
  funext fun a => Fin.ext (by match a with | ⟨0, _⟩ => rfl | ⟨1, _⟩ => rfl)

theorem idx10_11_9 (i : S2048x64.Idx) (k : Fin 512) : idx_main_v10 (idx_main_v11 (idx_main_v9 i k)) = i :=
  funext fun a => Fin.ext (by match a with | ⟨0, _⟩ => rfl | ⟨1, _⟩ => rfl)

/-- The largest entry of the row, as the reference takes it: a maximum from −∞, then once more against −∞. -/
theorem v4_eq (i : S2048x64.Idx) : val_main_v4 (F := Ideal) x0 x1 i = top (rowAt x0 x1 i) := by
  haveI : Std.Commutative (FloatOps.maximumf : Ideal .f32 → Ideal .f32 → Ideal .f32) := ⟨fun a b => max_comm a b⟩
  haveI : Std.Associative (FloatOps.maximumf : Ideal .f32 → Ideal .f32 → Ideal .f32) := ⟨fun a b c => max_assoc a b c⟩
  have hred : S2048x64x512.Reduces [2] S2048x64 := by decide
  rw [val_main_v4_apply, val_main_v3_apply, val_main_cst_0_apply]
  show max (Ideal.ofBits .f32 0xFF800000#32) (val_main_v2 (F := Ideal) x0 x1 i) = _
  rw [Cert.Consts.ofBits_neg_inf, max_eq_right bot_le]
  unfold val_main_v2
  rw [Host.reduce_eq_fold_single FloatOps.maximumf _ _ reducesTo_S2048x64x512_S2048x64_d2 hred h_S_ i]
  unfold top
  show Finset.univ.fold max (Ideal.ofBits .f32 0xFF800000#32) _ = _
  rw [Cert.Consts.ofBits_neg_inf]
  refine congrArg (Finset.univ.fold max ⊥) (funext fun k => ?_)
  show val_main_v1 (F := Ideal) x0 x1 (hred.lift i k) = val_main_v1 (F := Ideal) x0 x1 (idx_main_v9 i k)
  exact congrArg _ (funext fun a => Fin.ext (by match a with | ⟨0, _⟩ => rfl | ⟨1, _⟩ => rfl | ⟨2, _⟩ => rfl))

/-- The shifted exponential of entry `k` of the row. -/
theorem v8_eq (i : S2048x64.Idx) (k : Fin 512) : val_main_v8 (F := Ideal) x0 x1 (idx_main_v9 i k) = ex (rowAt x0 x1 i) k := by
  rw [val_main_v8_apply, val_main_v7_apply, val_main_v6_apply, val_main_v5_apply, idx5_6_9, v4_eq]
  rfl

/-- The row's sum of shifted exponentials. -/
theorem v9_eq (i : S2048x64.Idx) : val_main_v9 (F := Ideal) x0 x1 i = mass (rowAt x0 x1 i) := by
  rw [val_main_v9_apply, val_main_cst_1_apply]
  show Ideal.ofBits .f32 0x00000000#32 + _ = _
  rw [Ideal.ofBits_zero_f32, zero_add]
  unfold mass
  exact Finset.sum_congr rfl fun k _ => v8_eq x0 x1 i k

/-- The softmax probability of entry `k` of the row. -/
theorem v12_eq (i : S2048x64.Idx) (k : Fin 512) : val_main_v12 (F := Ideal) x0 x1 (idx_main_v9 i k) = prob (rowAt x0 x1 i) k := by
  rw [val_main_v12_apply, val_main_v11_apply, val_main_v10_apply, idx10_11_9, v8_eq, v9_eq]
  rfl

/-- Row `r` of the flattened problem, as an index of the 2048 × 64 rows. -/
abbrev pairOf (r : Fin 131072) : S2048x64.Idx := ix2 ⟨r.val / 64, by have := r.isLt; omega⟩ ⟨r.val % 64, Nat.mod_lt _ (by decide)⟩

theorem rowAt_pairOf (r : Fin 131072) : rowAt x0 x1 (pairOf r) = Cert.Spec.Row x0 x1 r := by
  funext k
  unfold rowAt Cert.Spec.Row
  rw [val_main_v1_apply, val_main_v0_apply]
  show x0 _ * x1 _ = x0 _ * x1 _
  congr 2 <;> exact funext fun a => Fin.ext (by match a with | ⟨0, _⟩ => rfl | ⟨1, _⟩ => rfl | ⟨2, _⟩ => rfl)

/-- THE ARRAY OF PROBABILITIES: entry (r, c) of the recast array is the softmax probability of entry `c` of row `r`. -/
theorem v13_eq (r : Fin 131072) (c : Fin 512) :
    val_main_v13 (F := Ideal) x0 x1 (ix2 r c) = prob (Cert.Spec.Row x0 x1 r) c := by
  rw [val_main_v13_apply, ← rowAt_pairOf, ← v12_eq]
  refine congrArg _ (funext fun a => Fin.ext ?_)
  have hr := r.isLt
  have hc := c.isLt
  match a with
  | ⟨0, _⟩ => show (r.val * 512 + c.val) / 32768 = r.val / 64; omega
  | ⟨1, _⟩ => show (r.val * 512 + c.val) / 512 % 64 = r.val % 64; omega
  | ⟨2, _⟩ => show (r.val * 512 + c.val) % 512 = c.val; omega

/-! ## The lines that read the array of probabilities -/

section Tail

open Cert.ReferenceIdeal.HandRun

variable (h0 : ∀ i, ∃ r : ℝ, x0 i = (r : EReal)) (h1 : ∀ i, ∃ r : ℝ, x1 i = (r : EReal))
include h0 h1

/-- Finite arguments give rows of real numbers. -/
theorem row_real (r : Fin 131072) (c : Fin 512) : ∃ y : ℝ, Cert.Spec.Row x0 x1 r c = (y : EReal) := by
  unfold Cert.Spec.Row
  obtain ⟨a, ha⟩ := h0 (ix3 ⟨r.val / 64, by have := r.isLt; omega⟩ ⟨r.val % 64, Nat.mod_lt _ (by decide)⟩ c)
  obtain ⟨b, hb⟩ := h1 (ix3 ⟨r.val / 64, by have := r.isLt; omega⟩ ⟨r.val % 64, Nat.mod_lt _ (by decide)⟩ 0)
  exact ⟨a * b, by rw [ha, hb, EReal.coe_mul]⟩

omit h0 h1 in
/-- Keeping a value where a comparison holds. -/
theorem keep_ogt {α : Type} (x y : EReal) (a b : α) : Scalar.select (Ideal.cmp .ogt x y) a b = if y < x then a else b := by
  by_cases h : y < x
  · rw [(Cert.Spec.cmp_ogt_eq_one x y).mpr h, select_one, if_pos h]
  · rw [eq_zero_of_ne_one (fun e => h ((Cert.Spec.cmp_ogt_eq_one x y).mp e)), select_zero, if_neg h]

/-- THE CONFIDENT TOTAL: adding every probability that exceeds the threshold adds, row by row, the largest entry's
    probability where that exceeds it (the row law). -/
theorem total_eq (j : S_.Idx) :
    totOf (F := Ideal) (val_main_v13 (F := Ideal) x0 x1) j = Cert.Spec.total x0 x1 := by
  unfold totOf
  show Ideal.hostReduceAdd reducesTo_S131072x512_S_d0_1 _ (Ideal.ofBits .f32 0x00000000#32) j = _
  rw [Ideal.hostReduceAdd_total reducesTo_S131072x512_S_d0_1 (fun b => b.elim0), Ideal.ofBits_zero_f32, zero_add, sum_idx2]
  unfold Cert.Spec.total
  refine Finset.sum_congr rfl fun r _ => ?_
  unfold Cert.Spec.rowTot
  rw [← sum_confident (Cert.Spec.Row x0 x1 r) (row_real x0 x1 h0 h1 r) Cert.Spec.θ Cert.Consts.thresh_half]
  refine Finset.sum_congr rfl fun c _ => ?_
  rw [select_apply, cmpf_apply, v13_eq, val_main_v14_apply, val_main_cst_2_apply, val_main_call0_v0_apply, val_main_cst_3_apply]
  exact (keep_ogt _ _ _ _).trans (if_congr Iff.rfl rfl Ideal.ofBits_zero_f32)

/-- THE 32-BIT COUNT: the integer sum of the widened comparison bits holds the number of confident rows. -/
theorem count_word (j : S_.Idx) :
    (cntOf (F := Ideal) (val_main_v13 (F := Ideal) x0 x1) j).toNat = Cert.Spec.count x0 x1 := by
  classical
  unfold cntOf
  have hsum : ∑ i : S131072x512.Idx,
      (extui 32 (cmpf (F := Ideal) (φ := .f32) .ogt (val_main_v13 (F := Ideal) x0 x1) (val_main_v14 (F := Ideal))) natLt_1_32 i).toNat
        = Cert.Spec.count x0 x1 := by
    rw [sum_idx2]
    unfold Cert.Spec.count
    rw [Finset.card_filter]
    refine Finset.sum_congr rfl fun r _ => ?_
    rw [← card_confident (Cert.Spec.Row x0 x1 r) (row_real x0 x1 h0 h1 r) Cert.Spec.θ Cert.Consts.thresh_half, Finset.card_filter]
    refine Finset.sum_congr rfl fun c _ => ?_
    rw [extui_apply, StableHlo.Predicate.toNat_setWidth_bit, cmpf_apply, v13_eq, val_main_v14_apply, val_main_cst_2_apply]
    exact if_congr (Cert.Spec.cmp_ogt_eq_one _ _) rfl rfl
  rw [Host.reduce_eq_fold]
  have hf : (Finset.univ.filter fun i : S131072x512.Idx => reducesTo_S131072x512_S_d0_1.drop i = j) = Finset.univ :=
    Finset.filter_true_of_mem fun i _ => funext fun b => b.elim0
  rw [hf]
  show (Finset.univ.fold IntOp.addi 0#32 _).toNat = _
  rw [StableHlo.Predicate.toNat_fold_addi _ _ (by rw [hsum]; exact lt_of_le_of_lt (Cert.Spec.count_le x0 x1) (by norm_num)), hsum]

/-- THE REFERENCE'S RESULT: the last stage is the specified loss. -/
theorem result_eq : val_main_v25 (F := Ideal) x0 x1 = fun _ => Cert.Spec.result x0 x1 := by
  funext j
  rw [val_eq_tail]
  unfold tailOf
  have hT := total_eq x0 x1 h0 h1 j
  have hW := count_word x0 x1 h0 h1 j
  show Scalar.select (IntOp.cmpi .sgt (cntOf (F := Ideal) (val_main_v13 (F := Ideal) x0 x1) j) 0#32)
      (Ideal.div (-(totOf (F := Ideal) (val_main_v13 (F := Ideal) x0 x1) j))
        (FloatOps.sitofp (F := Ideal) .f32 (IntOp.maxsi (cntOf (F := Ideal) (val_main_v13 (F := Ideal) x0 x1) j) 1#32)))
      (Ideal.ofBits .f32 0x00000000#32) = _
  rw [hT, Ideal.ofBits_zero_f32]
  exact Cert.Spec.close_word _ _ _ hW (lt_of_le_of_lt (Cert.Spec.count_le x0 x1) (by norm_num))

end Tail

end Cert.ReferenceIdeal.HandValue

end
-- ==== Proof.lean ====
/-
  The pseudo-label loss kernel against its jnp reference, over the extended reals.

  Both programs form, for each of 131072 rows of 512 scores (times the row's mask entry), the softmax probabilities
  p_c = exp (x_c − max x) / Σ exp (x − max x), keep those above the threshold θ = f32 0.9, and return minus the mean of the
  kept probabilities (0 when none is kept). The reference thresholds all 512 probabilities of a row; the kernel only the
  largest entry's, 1 / Σ exp (x − max x). These agree because the probabilities of a row are positive and sum to 1 and
  θ ≥ 1/2: at most one entry of a row can exceed θ, and only a largest one (Proof/RowLaw.lean). That needs the rows to be
  real numbers, which is what the precondition gives (Proof/Finite.lean). The kernel visits the rows in 64 blocks of 2048
  and carries the count of kept rows as a float sum of indicators, the reference as a 32-bit integer sum; below 2³¹ the two
  read the same (Proof/Spec.lean). Proof/KernelBlock.lean and Proof/KernelValue.lean read the kernel program's result off
  its generated frame run; Proof/RefRun.lean and Proof/RefValue.lean read the reference's off its stages.

  The kernel's two frames are the generated ones; the reference's frame is its run with the result dropped; nothing was
  rewritten by the ideal pass, so the kernel's idealization is its own text read at the ideal values.
-/
import proofs.«150160_g48619029790963_pilotgen1_678_2_alg».proof.Defs
import proofs.«150160_g48619029790963_pilotgen1_678_2_alg».proof.Proof.Gen.Kernel
import proofs.«150160_g48619029790963_pilotgen1_678_2_alg».proof.Proof.Gen.Kernel.Skeleton
import proofs.«150160_g48619029790963_pilotgen1_678_2_alg».proof.Proof.Gen.Kernel.Launch
import proofs.«150160_g48619029790963_pilotgen1_678_2_alg».proof.Proof.Gen.Kernel.Points
import proofs.«150160_g48619029790963_pilotgen1_678_2_alg».proof.Proof.Gen.Kernel.Frame
import proofs.«150160_g48619029790963_pilotgen1_678_2_alg».proof.Proof.Gen.KernelIdeal
import proofs.«150160_g48619029790963_pilotgen1_678_2_alg».proof.Proof.Gen.KernelIdeal.Skeleton
import proofs.«150160_g48619029790963_pilotgen1_678_2_alg».proof.Proof.Gen.KernelIdeal.Launch
import proofs.«150160_g48619029790963_pilotgen1_678_2_alg».proof.Proof.Gen.KernelIdeal.Points
import proofs.«150160_g48619029790963_pilotgen1_678_2_alg».proof.Proof.Gen.KernelIdeal.Frame
import proofs.«150160_g48619029790963_pilotgen1_678_2_alg».proof.Proof.Gen.ReferenceIdeal
import proofs.«150160_g48619029790963_pilotgen1_678_2_alg».proof.Proof.Gen.Pre_finite_inputs
import proofs.«150160_g48619029790963_pilotgen1_678_2_alg».proof.Proof.Finite
import proofs.«150160_g48619029790963_pilotgen1_678_2_alg».proof.Proof.KernelValue
import proofs.«150160_g48619029790963_pilotgen1_678_2_alg».proof.Proof.RefRun
import proofs.«150160_g48619029790963_pilotgen1_678_2_alg».proof.Proof.RefValue
import Idealize.ShloMosaic.Adequacy
import Idealize.ShloMosaic.Init

noncomputable section

namespace Cert.Proof

open Idealize.ShloMosaic Idealize.SL.Sem

/-- The reference runs and keeps its arguments: its run, the result dropped. -/
theorem frame_ref : Cert.frame_ReferenceIdeal := fun m ρ _ =>
  (θ_run Cert.ReferenceIdeal.defs _ _).mono (fun _ h c => (h c).2) (Cert.ReferenceIdeal.HandRun.run (F := Ideal) m ρ)

/-- Run from memories that agree on finite arguments, the kernel program and the reference both end with the loss
    `Cert.Spec.result` of the arguments in their result buffers. -/
theorem algebraic : Cert.algebraic_KernelIdeal_ReferenceIdeal := by
  intro m ρ m' ρ' hpre hagree
  refine ⟨fun c => fun _ => Cert.Spec.result (Cert.KernelIdeal.Hand.a0 m c) (Cert.KernelIdeal.Hand.a1 m c),
    Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  obtain ⟨h0, h1⟩ := Cert.Finite.of_pre _ _ (hpre c)
  exact Cert.ReferenceIdeal.HandValue.result_eq _ _ h0 h1

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
